-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2x4000000 : Shape := ⟨2, ![2, 4000000]⟩
abbrev S200000x64 : Shape := ⟨2, ![200000, 64]⟩
abbrev S500000x64 : Shape := ⟨2, ![500000, 64]⟩
abbrev S64x64 : Shape := ⟨2, ![64, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg7 : FVec F S64x64 .f32) (main_arg8 : FVec F S64 .f32) (main_arg9 : FVec F S128x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x1 .f32 := Host.absf main_arg9
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg10 main_v33

def fn {F : FTy → Type} [FloatOps F] (main_arg0 : IVec S500000 32) (main_arg1 : IVec S500000 32) (main_arg2 : IVec S2x4000000 32) (main_arg3 : FVec F S200000x64 .f32) (main_arg4 : FVec F S500000x64 .f32) (main_arg5 : FVec F S64x64 .f32) (main_arg6 : FVec F S64 .f32) (main_arg7 : FVec F S64x64 .f32) (main_arg8 : FVec F S64 .f32) (main_arg9 : FVec F S128x1 .f32) (main_arg10 : FVec F S1 .f32) : IVec S_ 1 :=
  let main_v0 : FVec F S200000x64 .f32 := Host.absf main_arg3
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S500000x64 .f32 := Host.absf main_arg4
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_v13 main_v16
-- ==== Kernel.lean ====
abbrev S500000 : Shape := ⟨1, ![500000]⟩
abbrev S2x4000000 : Shape := ⟨2, ![2, 4000000]⟩
abbrev S200000x64 : Shape := ⟨2, ![200000, 64]⟩
abbrev S500000x64 : Shape := ⟨2, ![500000, 64]⟩
abbrev S64x64 : Shape := ⟨2, ![64, 64]⟩
abbrev S64 : Shape := ⟨1, ![64]⟩
abbrev S128x1 : Shape := ⟨2, ![128, 1]⟩
abbrev S1 : Shape := ⟨1, ![1]⟩
abbrev S64x1 : Shape := ⟨2, ![64, 1]⟩
abbrev S_ : Shape := ⟨0, ![]⟩
abbrev S212992x64 : Shape := ⟨2, ![212992, 64]⟩
abbrev S212992 : Shape := ⟨1, ![212992]⟩
abbrev S16384x64 : Shape := ⟨2, ![16384, 64]⟩
abbrev S16384 : Shape := ⟨1, ![16384]⟩
abbrev S16384x1 : Shape := ⟨2, ![16384, 1]⟩
abbrev S200000 : Shape := ⟨1, ![200000]⟩
abbrev S507904x64 : Shape := ⟨2, ![507904, 64]⟩
abbrev S507904 : Shape := ⟨1, ![507904]⟩
abbrev S500000x1 : Shape := ⟨2, ![500000, 1]⟩

abbrev nBuf : Space → Nat
  | .hbm => 45
  | .vmem => 10
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S2x4000000, .i32⟩
  | .hbm, ⟨3, _⟩ => ⟨S200000x64, .f32⟩
  | .hbm, ⟨4, _⟩ => ⟨S500000x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x1, .f32⟩
  | .hbm, ⟨10, _⟩ => ⟨S1, .f32⟩
  | .hbm, ⟨11, _⟩ => ⟨S64x1, .f32⟩
  | .hbm, ⟨12, _⟩ => ⟨S64x1, .f32⟩
  | .hbm, ⟨13, _⟩ => ⟨S_, .i32⟩
  | .hbm, ⟨14, _⟩ => ⟨S_, .f32⟩
  | .hbm, ⟨15, _⟩ => ⟨S212992x64, .f32⟩
  | .hbm, ⟨16, _⟩ => ⟨S212992, .f32⟩
  | .hbm, ⟨17, _⟩ => ⟨S200000, .f32⟩
  | .hbm, ⟨18, _⟩ => ⟨S_, .i32⟩
  | .hbm, ⟨19, _⟩ => ⟨S_, .f32⟩
  | .hbm, ⟨20, _⟩ => ⟨S507904x64, .f32⟩
  | .hbm, ⟨21, _⟩ => ⟨S507904, .f32⟩
  | .hbm, ⟨22, _⟩ => ⟨S500000, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000, .f32⟩
  | .hbm, ⟨41, _⟩ => ⟨S500000, .f32⟩
  | .hbm, ⟨42, _⟩ => ⟨S_, .f32⟩
  | .hbm, ⟨43, _⟩ => ⟨S500000, .f32⟩
  | .hbm, ⟨44, _⟩ => ⟨S500000, .f32⟩
  | .local _ .vmem, ⟨0, _⟩ => ⟨S16384x64, .f32⟩
  | .local _ .vmem, ⟨1, _⟩ => ⟨S16384x64, .f32⟩
  | .local _ .vmem, ⟨2, _⟩ => ⟨S64x1, .f32⟩
  | .local _ .vmem, ⟨3, _⟩ => ⟨S16384, .f32⟩
  | .local _ .vmem, ⟨4, _⟩ => ⟨S16384, .f32⟩
  | .local _ .vmem, ⟨5, _⟩ => ⟨S16384x64, .f32⟩
  | .local _ .vmem, ⟨6, _⟩ => ⟨S16384x64, .f32⟩
  | .local _ .vmem, ⟨7, _⟩ => ⟨S64x1, .f32⟩
  | .local _ .vmem, ⟨8, _⟩ => ⟨S16384, .f32⟩
  | .local _ .vmem, ⟨9, _⟩ => ⟨S16384, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S128x1_S64x1_0_0 : S128x1.Slices ![0, 0] S64x1
  slices_S128x1_S64x1_64_0 : S128x1.Slices ![64, 0] S64x1
  pads_S200000x64_S212992x64_0129920_000 : S200000x64.Pads (![0, 0] : Fin 2 → Nat) ![12992, 0] ![0, 0] S212992x64
  h_S_ : 0 < S_.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S16384x1_S16384 : S16384x1.ShapeCasts S16384
  inb_S16384_S16384_0 : ∀ a, (![0] : Fin 1 → Nat) a + S16384.size a ≤ S16384.size a
  h_S16384 : 0 < S16384.numel
  slices_S212992_S200000_0 : S212992.Slices ![0] S200000
  pads_S500000x64_S507904x64_079040_000 : S500000x64.Pads (![0, 0] : Fin 2 → Nat) ![7904, 0] ![0, 0] S507904x64
  slices_S507904_S500000_0 : S507904.Slices ![0] S500000
  bcast_S_S500000 : S_.BroadcastsInDim S500000 (![] : Fin 0 → Fin S500000.rank)
  bcast_S500000_S500000x1_0 : S500000.BroadcastsInDim S500000x1 (![0] : Fin 1 → Fin S500000x1.rank)
  shapeCasts_S1_S_ : S1.ShapeCasts S_
  dot_S16384x64_S64x1_S16384x1_1_0_0_1_n_n_wf : DotDims.WF S16384x64 S64x1 S16384x1 [1] [0] [0] [1] [] []
  gather_S200000_S500000x1_S500000_n_0_n_n_0_1_1_wf : GatherDims.WF S200000 S500000x1 S500000 [] [0] [] [0] [] 1 ![1]
  gather_S500000_S500000x1_S500000_n_0_n_n_0_1_1_wf : GatherDims.WF S500000 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S212992x64.size a
  hwx0_0 : ∀ i : grid0.Coords, EltTy.bits .f32 = 32 ∨ (Rect.block (s := S212992x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S212992.size a
  hwx0_2 : ∀ i : grid0.Coords, EltTy.bits .f32 = 32 ∨ (Rect.block (s := S212992) S16384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S507904x64.size a
  hwx1_0 : ∀ i : grid1.Coords, EltTy.bits .f32 = 32 ∨ (Rect.block (s := S507904x64) S16384x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384.size a ≤ S507904.size a
  hwx1_2 : ∀ i : grid1.Coords, EltTy.bits .f32 = 32 ∨ (Rect.block (s := S507904) S16384.size (cc1_transform_2 i) (hinb1_2 i)).WholeWords (EltTy.packing .f32)

variable [Facts₀]

def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf
def gather_S200000_S500000x1_S500000_n_0_n_n_0_1_1 : GatherDims S200000 S500000x1 S500000 where
  offsetDims := []
  collapsedSliceDims := [0]
  operandBatchingDims := []
  startIndicesBatchingDims := []
  startIndexMap := [0]
  indexVectorDim := 1
  sliceSizes := ![1]
  wf := gather_S200000_S500000x1_S500000_n_0_n_n_0_1_1_wf
def gather_S500000_S500000x1_S500000_n_0_n_n_0_1_1 : GatherDims S500000 S500000x1 S500000 where
  offsetDims := []
  collapsedSliceDims := [0]
  operandBatchingDims := []
  startIndicesBatchingDims := []
  startIndexMap := [0]
  indexVectorDim := 1
  sliceSizes := ![1]
  wf := gather_S500000_S500000x1_S500000_n_0_n_n_0_1_1_wf

abbrev win0_0 : Pipeline.Window sig grid0 :=
  Pipeline.Window.ofSpec (Memref.whole main_v2) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S500000 : Shape := ⟨1, ![500000]⟩
abbrev S2x4000000 : Shape := ⟨2, ![2, 4000000]⟩
abbrev S200000x64 : Shape := ⟨2, ![200000, 64]⟩
abbrev S500000x64 : Shape := ⟨2, ![500000, 64]⟩
abbrev S64x64 : Shape := ⟨2, ![64, 64]⟩
abbrev S64 : Shape := ⟨1, ![64]⟩
abbrev S128x1 : Shape := ⟨2, ![128, 1]⟩
abbrev S1 : Shape := ⟨1, ![1]⟩
abbrev S_ : Shape := ⟨0, ![]⟩
abbrev S500000x1 : Shape := ⟨2, ![500000, 1]⟩
abbrev S1000000x64 : Shape := ⟨2, ![1000000, 64]⟩
abbrev S1x4000000 : Shape := ⟨2, ![1, 4000000]⟩
abbrev S4000000 : Shape := ⟨1, ![4000000]⟩
abbrev S1000000 : Shape := ⟨1, ![1000000]⟩
abbrev S5000000 : Shape := ⟨1, ![5000000]⟩
abbrev S5000000x1 : Shape := ⟨2, ![5000000, 1]⟩
abbrev S5000000x64 : Shape := ⟨2, ![5000000, 64]⟩
abbrev S1x64 : Shape := ⟨2, ![1, 64]⟩
abbrev S500000x128 : Shape := ⟨2, ![500000, 128]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S500000, .i32⟩
  | 1 => ⟨S500000, .i32⟩
  | 2 => ⟨S2x4000000, .i32⟩
  | 3 => ⟨S200000x64, .f32⟩
  | 4 => ⟨S500000x64, .f32⟩
  | 5 => ⟨S64x64, .f32⟩
  | 6 => ⟨S64, .f32⟩
  | 7 => ⟨S64x64, .f32⟩
  | 8 => ⟨S64, .f32⟩
  | 9 => ⟨S128x1, .f32⟩
  | 10 => ⟨S1, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x64, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x64, .f32⟩
  | 29 => ⟨S1000000x64, .f32⟩
  | 30 => ⟨S1x4000000, .i32⟩
  | 31 => ⟨S4000000, .i32⟩
  | 32 => ⟨S1x4000000, .i32⟩
  | 33 => ⟨S4000000, .i32⟩
  | 34 => ⟨S1000000x64, .f32⟩
  | 35 => ⟨S1000000, .i32⟩
  | 36 => ⟨S5000000, .i32⟩
  | 37 => ⟨S5000000, .i32⟩
  | 38 => ⟨S_, .f32⟩
  | 39 => ⟨S5000000, .f32⟩
  | 40 => ⟨S_, .f32⟩
  | 41 => ⟨S1000000, .f32⟩
  | 42 => ⟨S5000000x1, .i32⟩
  | 43 => ⟨S1000000, .f32⟩
  | 44 => ⟨S_, .f32⟩
  | 45 => ⟨S1000000, .f32⟩
  | 46 => ⟨S1000000, .i1⟩
  | 47 => ⟨S1000000, .f32⟩
  | 48 => ⟨S_, .f32⟩
  | 49 => ⟨S_, .f32⟩
  | 50 => ⟨S1000000, .f32⟩
  | 51 => ⟨S1000000, .f32⟩
  | 52 => ⟨S_, .i32⟩
  | 53 => ⟨S5000000, .i32⟩
  | 54 => ⟨S5000000, .i1⟩
  | 55 => ⟨S_, .i32⟩
  | 56 => ⟨S5000000, .i32⟩
  | 57 => ⟨S5000000, .i32⟩
  | 58 => ⟨S5000000, .i32⟩
  | 59 => ⟨S5000000x1, .i32⟩
  | 60 => ⟨S5000000, .f32⟩
  | 61 => ⟨S_, .i32⟩
  | 62 => ⟨S5000000, .i32⟩
  | 63 => ⟨S5000000, .i1⟩
  | 64 => ⟨S_, .i32⟩
  | 65 => ⟨S5000000, .i32⟩
  | 66 => ⟨S5000000, .i32⟩
  | 67 => ⟨S5000000, .i32⟩
  | 68 => ⟨S5000000x1, .i32⟩
  | 69 => ⟨S5000000, .f32⟩
  | 70 => ⟨S5000000, .f32⟩
  | 71 => ⟨S_, .i32⟩
  | 72 => ⟨S5000000, .i32⟩
  | 73 => ⟨S5000000, .i1⟩
  | 74 => ⟨S_, .i32⟩
  | 75 => ⟨S5000000, .i32⟩
  | 76 => ⟨S5000000, .i32⟩
  | 77 => ⟨S5000000, .i32⟩
  | 78 => ⟨S5000000x1, .i32⟩
  | 79 => ⟨S5000000x64, .f32⟩
  | 80 => ⟨S5000000x1, .f32⟩
  | 81 => ⟨S5000000x64, .f32⟩
  | 82 => ⟨S5000000x64, .f32⟩
  | 83 => ⟨S_, .f32⟩
  | 84 => ⟨S1000000x64, .f32⟩
  | 85 => ⟨S5000000x1, .i32⟩
  | 86 => ⟨S1000000x64, .f32⟩
  | 87 => ⟨S1x64, .f32⟩
  | 88 => ⟨S1000000x64, .f32⟩
  | 89 => ⟨S1000000x64, .f32⟩
  | 90 => ⟨S_, .f32⟩
  | 91 => ⟨S1000000x64, .f32⟩
  | 92 => ⟨S1000000x64, .f32⟩
  | 93 => ⟨S1000000x64, .f32⟩
  | 94 => ⟨S1000000, .i32⟩
  | 95 => ⟨S5000000, .i32⟩
  | 96 => ⟨S5000000, .i32⟩
  | 97 => ⟨S_, .f32⟩
  | 98 => ⟨S5000000, .f32⟩
  | 99 => ⟨S_, .f32⟩
  | 100 => ⟨S1000000, .f32⟩
  | 101 => ⟨S5000000x1, .i32⟩
  | 102 => ⟨S1000000, .f32⟩
  | 103 => ⟨S_, .f32⟩
  | 104 => ⟨S1000000, .f32⟩
  | 105 => ⟨S1000000, .i1⟩
  | 106 => ⟨S1000000, .f32⟩
  | 107 => ⟨S_, .f32⟩
  | 108 => ⟨S_, .f32⟩
  | 109 => ⟨S1000000, .f32⟩
  | 110 => ⟨S1000000, .f32⟩
  | 111 => ⟨S_, .i32⟩
  | 112 => ⟨S5000000, .i32⟩
  | 113 => ⟨S5000000, .i1⟩
  | 114 => ⟨S_, .i32⟩
  | 115 => ⟨S5000000, .i32⟩
  | 116 => ⟨S5000000, .i32⟩
  | 117 => ⟨S5000000, .i32⟩
  | 118 => ⟨S5000000x1, .i32⟩
  | 119 => ⟨S5000000, .f32⟩
  | 120 => ⟨S_, .i32⟩
  | 121 => ⟨S5000000, .i32⟩
  | 122 => ⟨S5000000, .i1⟩
  | 123 => ⟨S_, .i32⟩
  | 124 => ⟨S5000000, .i32⟩
  | 125 => ⟨S5000000, .i32⟩
  | 126 => ⟨S5000000, .i32⟩
  | 127 => ⟨S5000000x1, .i32⟩
  | _ => ⟨S500000, .i32⟩

abbrev hbmTy0_1 (i : Nat) : BufTy := match i % 128 with
  | 0 => ⟨S5000000, .f32⟩
  | 1 => ⟨S5000000, .f32⟩
  | 2 => ⟨S_, .i32⟩
  | 3 => ⟨S5000000, .i32⟩
  | 4 => ⟨S5000000, .i1⟩
  | 5 => ⟨S_, .i32⟩
  | 6 => ⟨S5000000, .i32⟩
  | 7 => ⟨S5000000, .i32⟩
  | 8 => ⟨S5000000, .i32⟩
  | 9 => ⟨S5000000x1, .i32⟩
  | 10 => ⟨S5000000x64, .f32⟩
  | 11 => ⟨S5000000x1, .f32⟩
  | 12 => ⟨S5000000x64, .f32⟩
  | 13 => ⟨S5000000x64, .f32⟩
  | 14 => ⟨S_, .f32⟩
  | 15 => ⟨S1000000x64, .f32⟩
  | 16 => ⟨S5000000x1, .i32⟩
  | 17 => ⟨S1000000x64, .f32⟩
  | 18 => ⟨S1x64, .f32⟩
  | 19 => ⟨S1000000x64, .f32⟩
  | 20 => ⟨S1000000x64, .f32⟩
  | 21 => ⟨S_, .f32⟩
  | 22 => ⟨S1000000x64, .f32⟩
  | 23 => ⟨S1000000x64, .f32⟩
  | 24 => ⟨S500000x128, .f32⟩
  | 25 => ⟨S500000x1, .f32⟩
  | 26 => ⟨S1x1, .f32⟩
  | 27 => ⟨S500000x1, .f32⟩
  | 28 => ⟨S500000x1, .f32⟩
  | 29 => ⟨S500000, .f32⟩
  | _ => ⟨S500000, .i32⟩

abbrev hbmTy (i : Nat) : BufTy := match i / 128 with
  | 0 => hbmTy0_0 i
  | 1 => hbmTy0_1 i
  | _ => ⟨S500000, .i32⟩

abbrev bufTy : (tb : Table) → Fin (tcTables nBuf tb) → BufTy
  | .hbm, ⟨i, _⟩ => hbmTy i
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call1_cst : Ref sig .tc := ⟨.hbm, 90, rfl⟩
abbrev main_call1_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_call2_v0 : Ref sig .tc := ⟨.hbm, 108, rfl⟩
abbrev main_call2_v1 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_c_20 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_21 : Ref sig .tc := ⟨.hbm, 130, rfl⟩
abbrev main_v90 : Ref sig .tc := ⟨.hbm, 131, rfl⟩
abbrev main_v91 : Ref sig .tc := ⟨.hbm, 132, rfl⟩
abbrev main_c_22 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_23 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call3_cst : Ref sig .tc := ⟨.hbm, 149, rfl⟩
abbrev main_call3_v0 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S1000000x64_d0 : Shape.Concatenates [S500000x64, S500000x64] S1000000x64 0
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S4000000_S1000000_S5000000_d0 : Shape.Concatenates [S4000000, S1000000] S5000000 0
  bcast_S_S5000000 : S_.BroadcastsInDim S5000000 (![] : Fin 0 → Fin S5000000.rank)
  bcast_S_S1000000 : S_.BroadcastsInDim S1000000 (![] : Fin 0 → Fin S1000000.rank)
  bcast_S5000000_S5000000x1_0 : S5000000.BroadcastsInDim S5000000x1 (![0] : Fin 1 → Fin S5000000x1.rank)
  bcast_S5000000x1_S5000000x64_0_1 : S5000000x1.BroadcastsInDim S5000000x64 (![0, 1] : Fin 2 → Fin S5000000x64.rank)
  bcast_S_S1000000x64 : S_.BroadcastsInDim S1000000x64 (![] : Fin 0 → Fin S1000000x64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  concatenates_S500000x64_S500000x64_S500000x128_d1 : Shape.Concatenates [S500000x64, S500000x64] S500000x128 1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S200000x64_S500000x1_S500000x64_1_0_n_n_0_1_164_wf : GatherDims.WF S200000x64 S500000x1 S500000x64 [1] [0] [] [0] [] 1 ![1, 64]
  gather_S500000x64_S500000x1_S500000x64_1_0_n_n_0_1_164_wf : GatherDims.WF S500000x64 S500000x1 S500000x64 [1] [0] [] [0] [] 1 ![1, 64]
  dot_S1000000x64_S64x64_S1000000x64_1_0_0_1_n_n_wf : DotDims.WF S1000000x64 S64x64 S1000000x64 [1] [0] [0] [1] [] []
  scatter_S1000000_S5000000x1_S5000000_n_0_0_1_wf : ScatterDims.WF S1000000 S5000000x1 S5000000 [] [0] [0] 1
  gather_S1000000_S5000000x1_S5000000_n_0_n_n_0_1_1_wf : GatherDims.WF S1000000 S5000000x1 S5000000 [] [0] [] [0] [] 1 ![1]
  gather_S1000000x64_S5000000x1_S5000000x64_1_0_n_n_0_1_164_wf : GatherDims.WF S1000000x64 S5000000x1 S5000000x64 [1] [0] [] [0] [] 1 ![1, 64]
  scatter_S1000000x64_S5000000x1_S5000000x64_1_0_0_1_wf : ScatterDims.WF S1000000x64 S5000000x1 S5000000x64 [1] [0] [0] 1
  dot_S500000x128_S128x1_S500000x1_1_0_0_1_n_n_wf : DotDims.WF S500000x128 S128x1 S500000x1 [1] [0] [0] [1] [] []

variable [Facts₀]

def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S500000x64_S500000x1_S500000x64_1_0_n_n_0_1_164 : GatherDims S500000x64 S500000x1 S500000x64 where
  offsetDims := [1]
  collapsedSliceDims := [0]
  operandBatchingDims := []
  startIndicesBatchingDims := []
  startIndexMap := [0]
  indexVectorDim := 1
  sliceSizes := ![1, 64]
  wf := gather_S500000x64_S500000x1_S500000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S1000000_S5000000x1_S5000000_n_0_0_1 : ScatterDims S1000000 S5000000x1 S5000000 where
  updateWindowDims := []
  insertedWindowDims := [0]
  scatterDimsToOperandDims := [0]
  indexVectorDim := 1
  wf := scatter_S1000000_S5000000x1_S5000000_n_0_0_1_wf
def gather_S1000000_S5000000x1_S5000000_n_0_n_n_0_1_1 : GatherDims S1000000 S5000000x1 S5000000 where
  offsetDims := []
  collapsedSliceDims := [0]
  operandBatchingDims := []
  startIndicesBatchingDims := []
  startIndexMap := [0]
  indexVectorDim := 1
  sliceSizes := ![1]
  wf := gather_S1000000_S5000000x1_S5000000_n_0_n_n_0_1_1_wf
def gather_S1000000x64_S5000000x1_S5000000x64_1_0_n_n_0_1_164 : GatherDims S1000000x64 S5000000x1 S5000000x64 where
  offsetDims := [1]
  collapsedSliceDims := [0]
  operandBatchingDims := []
  startIndicesBatchingDims := []
  startIndexMap := [0]
  indexVectorDim := 1
  sliceSizes := ![1, 64]
  wf := gather_S1000000x64_S5000000x1_S5000000x64_1_0_n_n_0_1_164_wf
def scatter_S1000000x64_S5000000x1_S5000000x64_1_0_0_1 : ScatterDims S1000000x64 S5000000x1 S5000000x64 where
  updateWindowDims := [1]
  insertedWindowDims := [0]
  scatterDimsToOperandDims := [0]
  indexVectorDim := 1
  wf := scatter_S1000000x64_S5000000x1_S5000000x64_1_0_0_1_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.RegionValue.lean ====
/-
  What each of the two table sweeps leaves in its output array. A sweep streams a zero-padded table `T : [Npad, 64]`
  through the matrix unit 16384 rows at a time against one weight column `w : [64, 1]`; grid point `t` holds rows
  `16384·t … 16384·t + 16383` and writes their scores to the same rows of the output vector. The blocks tile the
  output, so after the last point entry `i` of the output is `∑ k < 64, T[i, k] · w[k, 0]` on the extended reals:
  the product into a zero accumulator is that sum, and the reshape of the `[16384, 1]` product to `[16384]` keeps row `p`
  at position `p`. Stated for any contents `V` the region is entered with.
-/
import proofs.«422212_j60438779789899_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's arithmetic at a row -/

theorem lhs_mm_0 (i : S16384x1.Idx) (q : dot_S16384x64_S64x1_S16384x1_1_0_0_1_n_n.contr.Idx) :
    (dot_S16384x64_S64x1_S16384x1_1_0_0_1_n_n.lhsIdx i q 0).val = (i 0).val := by
  unfold DotDims.lhsIdx
  rw [dif_neg (show ¬(0 : Fin S16384x64.rank) ∈ dot_S16384x64_S64x1_S16384x1_1_0_0_1_n_n.lhsBatch by decide), dif_pos (show (0 : Fin S16384x64.rank) ∈ dot_S16384x64_S64x1_S16384x1_1_0_0_1_n_n.lhsNonContracting by decide)]
  rfl
theorem lhs_mm_1 (i : S16384x1.Idx) (q : dot_S16384x64_S64x1_S16384x1_1_0_0_1_n_n.contr.Idx) :
    (dot_S16384x64_S64x1_S16384x1_1_0_0_1_n_n.lhsIdx i q 1).val = (q ⟨0, by decide⟩).val :=
  dot_S16384x64_S64x1_S16384x1_1_0_0_1_n_n.lhsIdx_val_of_single rfl i q
theorem rhs_mm_0 (i : S16384x1.Idx) (q : dot_S16384x64_S64x1_S16384x1_1_0_0_1_n_n.contr.Idx) :
    (dot_S16384x64_S64x1_S16384x1_1_0_0_1_n_n.rhsIdx i q 0).val = (q ⟨0, by decide⟩).val :=
  dot_S16384x64_S64x1_S16384x1_1_0_0_1_n_n.rhsIdx_val_of_single rfl i q
theorem rhs_mm_1 (i : S16384x1.Idx) (q : dot_S16384x64_S64x1_S16384x1_1_0_0_1_n_n.contr.Idx) :
    (dot_S16384x64_S64x1_S16384x1_1_0_0_1_n_n.rhsIdx i q 1).val = (i 1).val := by
  unfold DotDims.rhsIdx
  rw [dif_neg (show ¬(1 : Fin S64x1.rank) ∈ dot_S16384x64_S64x1_S16384x1_1_0_0_1_n_n.rhsBatch by decide), dif_pos (show (1 : Fin S64x1.rank) ∈ dot_S16384x64_S64x1_S16384x1_1_0_0_1_n_n.rhsNonContracting by decide)]
  rfl

/-- The block's product with the weight column, into a zero accumulator, at row `p`: the row's 64 entries against
    the column's, summed. -/
theorem matmul_row (x : FVec Ideal S16384x64 .f32) (w : FVec Ideal S64x1 .f32) (p : Fin 16384) :
    matmul dot_S16384x64_S64x1_S16384x1_1_0_0_1_n_n none x w (constant S16384x1 .f32 0x00000000#32) (ix2 p (0 : Fin 1))
      = ∑ k : Fin 64, x (ix2 p k) * w (ix2 k (0 : Fin 1)) := by
  show FloatOps.matmul dot_S16384x64_S64x1_S16384x1_1_0_0_1_n_n none x w (constant S16384x1 .f32 0x00000000#32) (ix2 p (0 : Fin 1)) = _
  rw [Ideal.matmul_constant_zero_apply, ← Equiv.sum_comp (ValueIdx.contrEquiv1 dot_S16384x64_S64x1_S16384x1_1_0_0_1_n_n 64 rfl rfl).symm]
  refine Finset.sum_congr rfl fun k _ => ?_
  have hk := ValueIdx.contrEquiv1_symm_val dot_S16384x64_S64x1_S16384x1_1_0_0_1_n_n 64 rfl rfl k
  have el : dot_S16384x64_S64x1_S16384x1_1_0_0_1_n_n.lhsIdx (ix2 p (0 : Fin 1)) ((ValueIdx.contrEquiv1 dot_S16384x64_S64x1_S16384x1_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S16384x64_S64x1_S16384x1_1_0_0_1_n_n.rhsIdx (ix2 p (0 : Fin 1)) ((ValueIdx.contrEquiv1 dot_S16384x64_S64x1_S16384x1_1_0_0_1_n_n 64 rfl rfl).symm k) = ix2 k (0 : Fin 1) := funext fun a => Fin.ext (by
    match a with
    | ⟨0, _⟩ => exact (rhs_mm_0 _ _).trans hk
    | ⟨1, _⟩ => exact rhs_mm_1 _ _)
  rw [el, er]

/-- Region 0's payload at row `p`. -/
theorem pay0_row (x : Vec Ideal S16384x64 .f32) (w : Vec Ideal S64x1 .f32) (p : Fin 16384) :
    k0_pay1 x w (ix1 p) = ∑ k : Fin 64, x (ix2 p k) * w (ix2 k (0 : Fin 1)) := by
  unfold k0_pay1
  rw [shapeCast_self, shapeCast_self]
  refine (shapeCast_apply _ shapeCasts_S16384x1_S16384 (ix1 p) (ix2 p (0 : Fin 1)) (by
    rw [Shape.rowMajor_val_two, Shape.rowMajor_val_one]; show p.val * 1 + 0 = p.val; omega)).trans ?_
  exact matmul_row x w p

/-- Region 1's payload at row `p`: the same body. -/
theorem pay1_row (x : Vec Ideal S16384x64 .f32) (w : Vec Ideal S64x1 .f32) (p : Fin 16384) :
    k1_pay1 x w (ix1 p) = ∑ k : Fin 64, x (ix2 p k) * w (ix2 k (0 : Fin 1)) := by
  unfold k1_pay1
  rw [shapeCast_self, shapeCast_self]
  refine (shapeCast_apply _ shapeCasts_S16384x1_S16384 (ix1 p) (ix2 p (0 : Fin 1)) (by
    rw [Shape.rowMajor_val_two, Shape.rowMajor_val_one]; show p.val * 1 + 0 = p.val; omega)).trans ?_
  exact matmul_row x w p

/-! ## Region 0: the diner table's sweep -/

section Region0

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- Every row's score: the row of the padded table against the weight column. -/
abbrev scores0 (T : FVec Ideal S212992x64 .f32) (w : FVec Ideal S64x1 .f32) : FVec Ideal S212992 .f32 :=
  fun i => ∑ k : Fin 64, T (ix2 (⟨(i 0).val, (i 0).isLt⟩ : Fin 212992) k) * w (ix2 k (0 : Fin 1))

/-- The printed index maps over the 13 grid points: the table's block index is the point on the row axis and 0 on
    the column axis, the weight column's block never moves, the output's block index is the point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = t.val :=
  (by decide +kernel : ∀ t : Fin grid0.N, _)

/-- What point `t` writes back is block `t` of the scores of the arrays the region is entered with. -/
theorem flushed0_eq (c : Dev nD) (t : Fin cfg0.N) :
    (dat0 V c).flushed 2 t = ((cfg0.win 2).blk t).view.read (Elt Ideal) (scores0 (V c main_v2) (V c main_v0)) := by
  show (cfg0.win 2).cut (grid0.coords t) ((dat0 V c).after 2 t) = _
  rw [after0_2]
  unfold out0_2
  rw [View.canon_unit_zero hz1]
  simp only [View.ld_unit_zero (S := S16384x64) hz2, View.ld_unit_zero (S := S64x1) hz2]
  obtain ⟨e0, e1, e2, e3, e4⟩ := idx_facts0 t
  funext j
  show k0_pay1 (iblk0 V c 0 t) (iblk0 V c 1 t) j = scores0 (V c main_v2) (V c main_v0) (((cfg0.win 2).blk t).view.emb j)
  obtain ⟨p, rfl⟩ : ∃ p : Fin 16384, j = ix1 p := ⟨j 0, eq_ix1 j⟩
  refine (pay0_row (iblk0 V c 0 t) (iblk0 V c 1 t) p).trans ?_
  refine Finset.sum_congr rfl fun k _ => ?_
  have h0 : iblk0 V c 0 t (ix2 p k) = V c main_v2 (ix2 (⟨((((cfg0.win 2).blk t).view.emb (ix1 p)) 0).val, ((((cfg0.win 2).blk t).view.emb (ix1 p)) 0).isLt⟩ : Fin 212992) k) := by
    show V c main_v2 (((cfg0.win 0).blk t).view.emb (ix2 p k)) = _
    refine congrArg (V c main_v2) (funext fun a => Fin.ext ?_)
    match a with
    | ⟨0, _⟩ => show win0_0.index t (0 : Fin 2) * 16384 + 1 * p.val = win0_2.index t (0 : Fin 1) * 16384 + 1 * p.val; rw [e0, e4]
    | ⟨1, _⟩ => show win0_0.index t (1 : Fin 2) * 64 + 1 * k.val = k.val; rw [e1]; omega
  have h1 : iblk0 V c 1 t (ix2 k (0 : Fin 1)) = V c main_v0 (ix2 k (0 : Fin 1)) := by
    show V c main_v0 (((cfg0.win 1).blk t).view.emb (ix2 k (0 : Fin 1))) = _
    refine congrArg (V c main_v0) (funext fun a => Fin.ext ?_)
    match a with
    | ⟨0, _⟩ => show win0_1.index t (0 : Fin 2) * 64 + 1 * k.val = k.val; rw [e2]; omega
    | ⟨1, _⟩ => show win0_1.index t (1 : Fin 2) * 1 + 1 * 0 = 0; rw [e3]
  rw [h0, h1]

/-- An index of the output lies in point `t`'s block iff it is one of the block's 16384 rows. -/
theorem mem_blk0 (t : Fin cfg0.N) (i : S212992.Idx) :
    i ∈ ((cfg0.win 2).blk t).view.set ↔ ∀ a : Fin 1, win0_2.index t a * S16384.size a ≤ (i a).val ∧ (i a).val < win0_2.index t a * S16384.size a + S16384.size a := by
  show i ∈ ((View.whole main_v3).slice (win0_2.rect t)).set ↔ _
  rw [View.set_slice_whole, Rect.mem_set_unit]
  exact Iff.rfl

/-- Each of the 13 blocks of the output is some point's. -/
theorem idx_onto0 : ∀ q : Fin 13, ∃ t : Fin cfg0.N, win0_2.index t = ![q.val] :=
  (by decide +kernel : ∀ q : Fin 13, ∃ t : Fin grid0.N, win0_2.index t = ![q.val])

/-- The 13 blocks of 16384 rows tile the 212992 rows: row `i` is in block `i / 16384`. -/
theorem cover0 (i : S212992.Idx) : ∃ t : Fin cfg0.N, (cfg0.win 2).flush t = true ∧ i ∈ ((cfg0.win 2).blk t).view.set := by
  have hi0 : (i 0).val < 212992 := (i 0).isLt
  obtain ⟨t, ht⟩ := idx_onto0 ⟨(i 0).val / 16384, by omega⟩
  have q0 : win0_2.index t (0 : Fin 1) = (i 0).val / 16384 := congrFun ht 0
  refine ⟨t, flush0_2 t, ?_⟩
  rw [mem_blk0]
  intro a
  match a with
  | ⟨0, _⟩ => show win0_2.index t (0 : Fin 1) * 16384 ≤ (i 0).val ∧ (i 0).val < win0_2.index t (0 : Fin 1) * 16384 + 16384; omega

/-- The output array after the sweep: every row's score. -/
theorem final0 (c : Dev nD) : (dat0 V c).arrAt 2 cfg0.N = scores0 (V c main_v2) (V c main_v0) :=
  (dat0 V c).arrAt_eq_of_cover 2 _ (fun t _ => flushed0_eq V c t) cover0

end Region0

/-! ## Region 1: the reviewer table's sweep -/

section Region1

variable (V : (c : Dev nD) → (b : Ref sig .tc) → Buf (Elt Ideal) ((c : Thread nD τ).loc b))

/-- Every row's score: the row of the padded table against the weight column. -/
abbrev scores1 (T : FVec Ideal S507904x64 .f32) (w : FVec Ideal S64x1 .f32) : FVec Ideal S507904 .f32 :=
  fun i => ∑ k : Fin 64, T (ix2 (⟨(i 0).val, (i 0).isLt⟩ : Fin 507904) k) * w (ix2 k (0 : Fin 1))

/-- The printed index maps over the 31 grid points: the table's block index is the point on the row axis and 0 on
    the column axis, the weight column's block never moves, the output's block index is the point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = t.val :=
  (by decide +kernel : ∀ t : Fin grid1.N, _)

/-- What point `t` writes back is block `t` of the scores of the arrays the region is entered with. -/
theorem flushed1_eq (c : Dev nD) (t : Fin cfg1.N) :
    (dat1 V c).flushed 2 t = ((cfg1.win 2).blk t).view.read (Elt Ideal) (scores1 (V c main_v5) (V c main_v1)) := by
  show (cfg1.win 2).cut (grid1.coords t) ((dat1 V c).after 2 t) = _
  rw [after1_2]
  unfold out1_2
  rw [View.canon_unit_zero hz1]
  simp only [View.ld_unit_zero (S := S16384x64) hz2, View.ld_unit_zero (S := S64x1) hz2]
  obtain ⟨e0, e1, e2, e3, e4⟩ := idx_facts1 t
  funext j
  show k1_pay1 (iblk1 V c 0 t) (iblk1 V c 1 t) j = scores1 (V c main_v5) (V c main_v1) (((cfg1.win 2).blk t).view.emb j)
  obtain ⟨p, rfl⟩ : ∃ p : Fin 16384, j = ix1 p := ⟨j 0, eq_ix1 j⟩
  refine (pay1_row (iblk1 V c 0 t) (iblk1 V c 1 t) p).trans ?_
  refine Finset.sum_congr rfl fun k _ => ?_
  have h0 : iblk1 V c 0 t (ix2 p k) = V c main_v5 (ix2 (⟨((((cfg1.win 2).blk t).view.emb (ix1 p)) 0).val, ((((cfg1.win 2).blk t).view.emb (ix1 p)) 0).isLt⟩ : Fin 507904) k) := by
    show V c main_v5 (((cfg1.win 0).blk t).view.emb (ix2 p k)) = _
    refine congrArg (V c main_v5) (funext fun a => Fin.ext ?_)
    match a with
    | ⟨0, _⟩ => show win1_0.index t (0 : Fin 2) * 16384 + 1 * p.val = win1_2.index t (0 : Fin 1) * 16384 + 1 * p.val; rw [e0, e4]
    | ⟨1, _⟩ => show win1_0.index t (1 : Fin 2) * 64 + 1 * k.val = k.val; rw [e1]; omega
  have h1 : iblk1 V c 1 t (ix2 k (0 : Fin 1)) = V c main_v1 (ix2 k (0 : Fin 1)) := by
    show V c main_v1 (((cfg1.win 1).blk t).view.emb (ix2 k (0 : Fin 1))) = _
    refine congrArg (V c main_v1) (funext fun a => Fin.ext ?_)
    match a with
    | ⟨0, _⟩ => show win1_1.index t (0 : Fin 2) * 64 + 1 * k.val = k.val; rw [e2]; omega
    | ⟨1, _⟩ => show win1_1.index t (1 : Fin 2) * 1 + 1 * 0 = 0; rw [e3]
  rw [h0, h1]

/-- An index of the output lies in point `t`'s block iff it is one of the block's 16384 rows. -/
theorem mem_blk1 (t : Fin cfg1.N) (i : S507904.Idx) :
    i ∈ ((cfg1.win 2).blk t).view.set ↔ ∀ a : Fin 1, win1_2.index t a * S16384.size a ≤ (i a).val ∧ (i a).val < win1_2.index t a * S16384.size a + S16384.size a := by
  show i ∈ ((View.whole main_v6).slice (win1_2.rect t)).set ↔ _
  rw [View.set_slice_whole, Rect.mem_set_unit]
  exact Iff.rfl

/-- Each of the 31 blocks of the output is some point's. -/
theorem idx_onto1 : ∀ q : Fin 31, ∃ t : Fin cfg1.N, win1_2.index t = ![q.val] :=
  (by decide +kernel : ∀ q : Fin 31, ∃ t : Fin grid1.N, win1_2.index t = ![q.val])

/-- The 31 blocks of 16384 rows tile the 507904 rows: row `i` is in block `i / 16384`. -/
theorem cover1 (i : S507904.Idx) : ∃ t : Fin cfg1.N, (cfg1.win 2).flush t = true ∧ i ∈ ((cfg1.win 2).blk t).view.set := by
  have hi0 : (i 0).val < 507904 := (i 0).isLt
  obtain ⟨t, ht⟩ := idx_onto1 ⟨(i 0).val / 16384, by omega⟩
  have q0 : win1_2.index t (0 : Fin 1) = (i 0).val / 16384 := congrFun ht 0
  refine ⟨t, flush1_2 t, ?_⟩
  rw [mem_blk1]
  intro a
  match a with
  | ⟨0, _⟩ => show win1_2.index t (0 : Fin 1) * 16384 ≤ (i 0).val ∧ (i 0).val < win1_2.index t (0 : Fin 1) * 16384 + 16384; omega

/-- The output array after the sweep: every row's score. -/
theorem final1 (c : Dev nD) : (dat1 V c).arrAt 2 cfg1.N = scores1 (V c main_v5) (V c main_v1) :=
  (dat1 V c).arrAt_eq_of_cover 2 _ (fun t _ => flushed1_eq V c t) cover1

end Region1

end Cert.KernelIdeal.RegionValue

end
-- ==== Proof.LibGather.lean ====
/-
  A row gather along axis 0 read at an index: `x[idx]` for a vector `x : [N]` and for a table `X : [N, C]`, with start
  indices `idx : [R, 1]` (one start index per result row). StableHLO's gather clamps the start so that the slice
  fits: the row read is `min (idx[b, 0] read signed, negatives at 0) (N - 1)`, the same row for the vector and for
  every column of the table. Stated over literal shapes, for any width of the index words and any element type.
-/
import Idealize.ShloMosaic.Lib.ValueIdx

noncomputable section

namespace Idealize.ShloMosaic.RowGather

open Idealize.ShloMosaic Idealize.ShloMosaic.ValueIdx

variable {α : Type}

/-- The row a start index word selects in an array of `N` rows: the word read signed, a negative one at `0`,
    clamped to the last row. -/
def rowOf (N : Nat) (hN : 0 < N) {w : Nat} (x : BitVec w) : Fin N := ⟨min x.toInt.toNat (N - 1), by omega⟩

/-- The dimension numbers of `x[idx]` on a vector: the one operand axis collapsed, no offset axis. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of `X[idx]` on a table: the row axis collapsed, the column axis the one offset axis,
    whole rows taken. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The vector gather at result row `b`: the operand at the row `idx[b, 0]` selects. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (b : Fin R) :
    Host.gather (vecDims N R wf) x idx (ix1 b) = x (ix1 (rowOf N hN (idx (ix2 b (⟨0, Nat.one_pos⟩ : Fin 1))))) := by
  unfold Host.gather
  congr 1
  funext a
  obtain rfl : a = 0 := Subsingleton.elim _ _
  refine Fin.ext ?_
  show (vecDims N R wf).start (ix1 b) idx 0 + (vecDims N R wf).batchCoord (ix1 b) 0 + (vecDims N R wf).offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 b) ⟨List.idxOf (0 : Fin 1) (vecDims N R wf).startIndexMap,
      List.idxOf_lt_length_iff.2 (List.mem_singleton.mpr rfl)⟩ = ix2 b (⟨0, Nat.one_pos⟩ : Fin 1) := by
    funext c; refine Fin.ext ?_
    match c with
    | ⟨0, _⟩ => rfl
    | ⟨1, _⟩ => rfl
  rw [hsi]
  rfl

/-- The table gather at result index `(b, k)`: column `k` of the row `idx[b, 0]` selects. -/
theorem gather_rows_apply {N C R w : Nat} (hN : 0 < N)
    (wf : GatherDims.WF ⟨2, ![N, C]⟩ ⟨2, ![R, 1]⟩ ⟨2, ![R, C]⟩ [1] [0] [] [0] [] 1 ![1, C])
    (X : (⟨2, ![N, C]⟩ : Shape).Idx → α) (idx : IVec ⟨2, ![R, 1]⟩ w) (b : Fin R) (k : Fin C) :
    Host.gather (rowDims N C R wf) X idx (ix2 b k) = X (ix2 (rowOf N hN (idx (ix2 b (⟨0, Nat.one_pos⟩ : Fin 1)))) k) := by
  unfold Host.gather
  congr 1
  funext a
  refine Fin.ext ?_
  match a with
  | ⟨0, _⟩ =>
    show (rowDims N C R wf).start (ix2 b k) idx 0 + (rowDims N C R wf).batchCoord (ix2 b k) 0 + (rowDims N C R wf).offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 b k) ⟨List.idxOf (0 : Fin 2) (rowDims N C R wf).startIndexMap,
        List.idxOf_lt_length_iff.2 (List.mem_singleton.mpr rfl)⟩ = ix2 b (⟨0, Nat.one_pos⟩ : Fin 1) := by
      funext c; refine Fin.ext ?_
      match c with
      | ⟨0, _⟩ => rfl
      | ⟨1, _⟩ => rfl
    rw [hsi]
    rfl
  | ⟨1, _⟩ =>
    show (rowDims N C R wf).start (ix2 b k) idx 1 + (rowDims N C R wf).batchCoord (ix2 b k) 1 + (rowDims N C R wf).offCoord (ix2 b k) 1 = k.val
    rw [GatherDims.batchCoord_eq_zero _ _ _ List.not_mem_nil]
    have hs : (rowDims N C R wf).start (ix2 b k) idx 1 = 0 := by
      unfold GatherDims.start
      rw [dif_neg (show ¬ (1 : Fin 2) ∈ ([0] : List (Fin 2)) by decide)]
    rw [hs]
    have hk : (1 : Fin 2) ∈ (rowDims N C R wf).sKept :=
      (GatherDims.mem_sKept _ _).mpr ⟨(show ¬ (1 : Fin 2) ∈ ([0] : List (Fin 2)) by decide), List.not_mem_nil⟩
    have hsk : (rowDims N C R wf).sKept = ([1] : List (Fin 2)) := by
      show ((List.finRange 2).filter fun a : Fin 2 => decide (a ∉ ([0] ++ [] : List (Fin 2)))) = [1]
      rfl
    unfold GatherDims.offCoord
    rw [dif_pos hk]
    simp only [hsk, List.idxOf_cons_self, List.getElem_cons_zero, Nat.zero_add]
    rfl

end Idealize.ShloMosaic.RowGather

end
-- ==== Proof.Spec.lean ====
/-
  The function both programs compute, index by index on the extended reals. For pair `b`: the diner row and the
  reviewer row the (normalised) start indices select, each against its half of the 128 weights, plus the bias:
    out[b] = ∑ k < 64, D[rd(b), k] · W[k, 0]  +  ∑ k < 64, R[rr(b), k] · W[64 + k, 0]  +  bias[0],
  where `rd(b)`, `rr(b)` are the start index words read signed and clamped into the table (`RowGather.rowOf`).
  The start indices enter as the `[500000, 1]` columns the gathers take, whatever computed them.
-/
import proofs.«422212_j60438779789899_3_alg».proof.Proof.LibGather
import Idealize.ShloMosaic.PureOps.Ideal

noncomputable section

namespace Cert.Spec

open Idealize.ShloMosaic Idealize.ShloMosaic.ValueIdx Idealize.ShloMosaic.RowGather

/-- One table row against 64 consecutive weights starting at weight `o`. -/
def rowScore {N : Nat} (T : FVec Ideal ⟨2, ![N, 64]⟩ .f32) (W : FVec Ideal ⟨2, ![128, 1]⟩ .f32) (o : Nat) (ho : o + 64 ≤ 128)
    (r : Fin N) : Ideal .f32 :=
  ∑ k : Fin 64, T (ix2 r k) * W (ix2 (⟨o + k.val, by omega⟩ : Fin 128) (0 : Fin 1))

/-- The result at every pair. -/
def out (J0 J1 : IVec ⟨2, ![500000, 1]⟩ 32) (D : FVec Ideal ⟨2, ![200000, 64]⟩ .f32) (R : FVec Ideal ⟨2, ![500000, 64]⟩ .f32)
    (W : FVec Ideal ⟨2, ![128, 1]⟩ .f32) (bias : FVec Ideal ⟨1, ![1]⟩ .f32) : FVec Ideal ⟨1, ![500000]⟩ .f32 :=
  fun i =>
    rowScore D W 0 (by omega) (rowOf 200000 (by omega) (J0 (ix2 (⟨(i 0).val, (i 0).isLt⟩ : Fin 500000) (0 : Fin 1))))
      + rowScore R W 64 (by omega) (rowOf 500000 (by omega) (J1 (ix2 (⟨(i 0).val, (i 0).isLt⟩ : Fin 500000) (0 : Fin 1))))
      + bias (ix1 (0 : Fin 1))

end Cert.Spec

end
-- ==== Proof.KernelValue.lean ====
/-
  The value of the kernel's program at the ideal instance. Its @main pads each table with zero rows to a multiple of
  16384, sweeps it against its half of the weights (RegionValue), drops the padding rows again, and then reads, for pair
  `b`, one score out of each sweep's vector at the row the pair's start index selects, adds the two and the bias.
  A gather of a vector of scores at a row is that row's score; a row below the table's height is untouched by the
  padding (only rows past the table are padding, and the slice drops them); and the two weight slices are weights
  `k` and `64 + k`. So the result at `b` is `Spec.out`: the selected diner row against weights 0…63 plus the selected
  reviewer row against weights 64…127 plus the bias.
-/
import proofs.«422212_j60438779789899_3_alg».proof.Proof.Gen.KernelIdeal.Frame
import proofs.«422212_j60438779789899_3_alg».proof.Proof.RegionValue
import proofs.«422212_j60438779789899_3_alg».proof.Proof.Spec
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.KernelIdeal.RegionValue
open Idealize.ShloMosaic Idealize.ShloMosaic.TcCoe Idealize.ShloMosaic.ValueIdx Idealize.ShloMosaic.RowGather
open Idealize.SL Idealize.SL.Sem
open Idealize.ShloMosaic.StableHlo

variable (m : (ℓ : Loc nD τ sig) → Buf (Elt Ideal) ℓ) (ρ : Dev nD → PrngReg)

/-- A stretch of host operations leaves a buffer none of them writes as it found it. -/
local macro "skip_ops " ops:ident " at " b:term : term => `(StableHlo.after_of_forall_not_mem (b := Proc.devRef .tc $b) _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## A selected row's score, through the padding and the two slices -/

/-- Row `r` of the diner table's score vector, padding rows dropped: the row against weights `0 … 63`. -/
theorem score0_row (D : FVec Ideal S200000x64 .f32) (pv : FVec Ideal S_ .f32) (W : FVec Ideal S128x1 .f32) (r : Fin 200000) :
    extractStridedSlice S200000 ![0]
        (scores0 (pad S212992x64 ![0, 0] ![12992, 0] ![0, 0] D pv pads_S200000x64_S212992x64_0129920_000 h_S_)
          (extractStridedSlice S64x1 ![0, 0] W slices_S128x1_S64x1_0_0)) slices_S212992_S200000_0 (ix1 r)
      = Cert.Spec.rowScore D W 0 (by omega) r := by
  have hr : r.val < 212992 := by have := r.isLt; omega
  refine (extractStridedSlice_apply ![0] _ slices_S212992_S200000_0 (ix1 r) (ix1 (⟨r.val, hr⟩ : Fin 212992)) (fun a => by
    match a with
    | ⟨0, _⟩ => show r.val = 0 + r.val; omega)).trans ?_
  unfold Cert.Spec.rowScore
  refine Finset.sum_congr rfl fun k _ => ?_
  have hp : pad S212992x64 ![0, 0] ![12992, 0] ![0, 0] D pv pads_S200000x64_S212992x64_0129920_000 h_S_ (ix2 (⟨r.val, hr⟩ : Fin 212992) k) = D (ix2 r k) :=
    pad_apply_of_inside ![0, 0] ![12992, 0] ![0, 0] D pv pads_S200000x64_S212992x64_0129920_000 h_S_ _ (ix2 r k) (fun a => by
      match a with
      | ⟨0, _⟩ => show r.val = 0 + r.val * (0 + 1); omega
      | ⟨1, _⟩ => show k.val = 0 + k.val * (0 + 1); omega)
  have hw : extractStridedSlice S64x1 ![0, 0] W slices_S128x1_S64x1_0_0 (ix2 k (0 : Fin 1)) = W (ix2 (⟨0 + k.val, by omega⟩ : Fin 128) (0 : Fin 1)) :=
    extractStridedSlice_apply ![0, 0] W slices_S128x1_S64x1_0_0 _ _ (fun a => by
      match a with
      | ⟨0, _⟩ => show 0 + k.val = 0 + k.val; rfl
      | ⟨1, _⟩ => show 0 = 0 + 0; rfl)
  show pad S212992x64 ![0, 0] ![12992, 0] ![0, 0] D pv pads_S200000x64_S212992x64_0129920_000 h_S_ (ix2 (⟨r.val, hr⟩ : Fin 212992) k)
      * extractStridedSlice S64x1 ![0, 0] W slices_S128x1_S64x1_0_0 (ix2 k (0 : Fin 1)) = _
  rw [hp, hw]

/-- Row `r` of the reviewer table's score vector, padding rows dropped: the row against weights `64 … 127`. -/
theorem score1_row (R : FVec Ideal S500000x64 .f32) (pv : FVec Ideal S_ .f32) (W : FVec Ideal S128x1 .f32) (r : Fin 500000) :
    extractStridedSlice S500000 ![0]
        (scores1 (pad S507904x64 ![0, 0] ![7904, 0] ![0, 0] R pv pads_S500000x64_S507904x64_079040_000 h_S_)
          (extractStridedSlice S64x1 ![64, 0] W slices_S128x1_S64x1_64_0)) slices_S507904_S500000_0 (ix1 r)
      = Cert.Spec.rowScore R W 64 (by omega) r := by
  have hr : r.val < 507904 := by have := r.isLt; omega
  refine (extractStridedSlice_apply ![0] _ slices_S507904_S500000_0 (ix1 r) (ix1 (⟨r.val, hr⟩ : Fin 507904)) (fun a => by
    match a with
    | ⟨0, _⟩ => show r.val = 0 + r.val; omega)).trans ?_
  unfold Cert.Spec.rowScore
  refine Finset.sum_congr rfl fun k _ => ?_
  have hp : pad S507904x64 ![0, 0] ![7904, 0] ![0, 0] R pv pads_S500000x64_S507904x64_079040_000 h_S_ (ix2 (⟨r.val, hr⟩ : Fin 507904) k) = R (ix2 r k) :=
    pad_apply_of_inside ![0, 0] ![7904, 0] ![0, 0] R pv pads_S500000x64_S507904x64_079040_000 h_S_ _ (ix2 r k) (fun a => by
      match a with
      | ⟨0, _⟩ => show r.val = 0 + r.val * (0 + 1); omega
      | ⟨1, _⟩ => show k.val = 0 + k.val * (0 + 1); omega)
  have hw : extractStridedSlice S64x1 ![64, 0] W slices_S128x1_S64x1_64_0 (ix2 k (0 : Fin 1)) = W (ix2 (⟨64 + k.val, by omega⟩ : Fin 128) (0 : Fin 1)) :=
    extractStridedSlice_apply ![64, 0] W slices_S128x1_S64x1_64_0 _ _ (fun a => by
      match a with
      | ⟨0, _⟩ => show 64 + k.val = 64 + k.val; rfl
      | ⟨1, _⟩ => show 0 = 0 + 0; rfl)
  show pad S507904x64 ![0, 0] ![7904, 0] ![0, 0] R pv pads_S500000x64_S507904x64_079040_000 h_S_ (ix2 (⟨r.val, hr⟩ : Fin 507904) k)
      * extractStridedSlice S64x1 ![64, 0] W slices_S128x1_S64x1_64_0 (ix2 k (0 : Fin 1)) = _
  rw [hp, hw]

/-! ## The buffers the regions and the last stretch read, traced back to the launch memory -/

/-- Region 0's weight column: weights `0 … 63`. -/
theorem V2_v0 (c : Dev nD) :
    V2 m ρ c main_v0 = extractStridedSlice S64x1 ![0, 0] (m ((c : Thread nD τ).loc main_arg9)) slices_S128x1_S64x1_0_0 := by
  show StableHlo.after hostOps0_1 (W1 m ρ c) (Proc.devRef .tc main_v0) = _
  refine (skip_ops hostOps0_1 at main_v0).trans ?_
  show StableHlo.after hostOps0 (W0 m ρ c) (Proc.devRef .tc main_v0) = _
  after_results

/-- Region 0's table: the diner table padded below with rows of one value. -/
theorem V2_v2 (c : Dev nD) :
    V2 m ρ c main_v2 = pad S212992x64 ![0, 0] ![12992, 0] ![0, 0] (m ((c : Thread nD τ).loc main_arg3))
      (sitofp .f32 (constantI S_ 32 0#32) : FVec Ideal S_ .f32) pads_S200000x64_S212992x64_0129920_000 h_S_ := by
  show StableHlo.after hostOps0_1 (W1 m ρ c) (Proc.devRef .tc main_v2) = _
  after_results
  rfl

/-- Region 0's output array when the region is left: every padded row's score. -/
theorem W3_v3 (c : Dev nD) :
    W3 m ρ c (Proc.devRef .tc main_v3) = scores0 (V2 m ρ c main_v2) (V2 m ρ c main_v0) :=
  (W3_arr m ρ c 2).trans (final0 (V2 m ρ) c)

/-- The diner scores with the padding rows dropped, as region 1 and the last stretch find them. -/
theorem W5_v4 (c : Dev nD) :
    W5 m ρ c (Proc.devRef .tc main_v4) = extractStridedSlice S200000 ![0] (W3 m ρ c (Proc.devRef .tc main_v3)) slices_S212992_S200000_0 := by
  show StableHlo.after hostOps1_1 (W4 m ρ c) (Proc.devRef .tc main_v4) = _
  refine (skip_ops hostOps1_1 at main_v4).trans ?_
  show StableHlo.after hostOps1 (W3 m ρ c) (Proc.devRef .tc main_v4) = _
  after_results

/-- Region 1's weight column: weights `64 … 127`, sliced before region 0 and untouched since. -/
theorem V5_v1 (c : Dev nD) :
    V5 m ρ c main_v1 = extractStridedSlice S64x1 ![64, 0] (m ((c : Thread nD τ).loc main_arg9)) slices_S128x1_S64x1_64_0 := by
  show StableHlo.after hostOps1_1 (W4 m ρ c) (Proc.devRef .tc main_v1) = _
  refine (skip_ops hostOps1_1 at main_v1).trans ?_
  show StableHlo.after hostOps1 (W3 m ρ c) (Proc.devRef .tc main_v1) = _
  refine (skip_ops hostOps1 at main_v1).trans ?_
  refine (W3_of_ne m ρ c main_v1 (by decide)).trans ?_
  show StableHlo.after hostOps0_1 (W1 m ρ c) (Proc.devRef .tc main_v1) = _
  refine (skip_ops hostOps0_1 at main_v1).trans ?_
  show StableHlo.after hostOps0 (W0 m ρ c) (Proc.devRef .tc main_v1) = _
  after_results

/-- The reviewer table is as launched when region 1's padding reads it. -/
theorem W4_arg4 (c : Dev nD) : W4 m ρ c (Proc.devRef .tc main_arg4) = m ((c : Thread nD τ).loc main_arg4) := by
  show StableHlo.after hostOps1 (W3 m ρ c) (Proc.devRef .tc main_arg4) = _
  refine (skip_ops hostOps1 at main_arg4).trans ?_
  refine (W3_of_ne m ρ c main_arg4 (by decide)).trans ?_
  show StableHlo.after hostOps0_1 (W1 m ρ c) (Proc.devRef .tc main_arg4) = _
  refine (skip_ops hostOps0_1 at main_arg4).trans ?_
  show StableHlo.after hostOps0 (W0 m ρ c) (Proc.devRef .tc main_arg4) = _
  exact (skip_ops hostOps0 at main_arg4).trans rfl

/-- The padding stretch before region 1, from any contents. -/
theorem pad1_of (X : Valuation τ sig (Elt Ideal)) :
    StableHlo.after hostOps1_1 X (Proc.devRef .tc main_v5)
      = pad S507904x64 ![0, 0] ![7904, 0] ![0, 0] (X (Proc.devRef .tc main_arg4))
          (sitofp .f32 (X (Proc.devRef .tc main_c_0)) : FVec Ideal S_ .f32) pads_S500000x64_S507904x64_079040_000 h_S_ := by
  after_results
  rfl

/-- Region 1's table: the reviewer table padded below with rows of one value. -/
theorem V5_v5 (c : Dev nD) :
    V5 m ρ c main_v5 = pad S507904x64 ![0, 0] ![7904, 0] ![0, 0] (m ((c : Thread nD τ).loc main_arg4))
      (sitofp .f32 (W4 m ρ c (Proc.devRef .tc main_c_0)) : FVec Ideal S_ .f32) pads_S500000x64_S507904x64_079040_000 h_S_ := by
  show StableHlo.after hostOps1_1 (W4 m ρ c) (Proc.devRef .tc main_v5) = _
  rw [pad1_of, W4_arg4]

/-- Region 1's output array when the region is left. -/
theorem W6_v6 (c : Dev nD) :
    W6 m ρ c (Proc.devRef .tc main_v6) = scores1 (V5 m ρ c main_v5) (V5 m ρ c main_v1) :=
  (W6_arr m ρ c 2).trans (final1 (V5 m ρ) c)

theorem W6_v4 (c : Dev nD) : W6 m ρ c (Proc.devRef .tc main_v4) = W5 m ρ c (Proc.devRef .tc main_v4) :=
  W6_of_ne m ρ c main_v4 (by decide)

/-- The arguments the last stretch reads are as launched. -/
theorem W6_arg0 (c : Dev nD) : W6 m ρ c (Proc.devRef .tc main_arg0) = m ((c : Thread nD τ).loc main_arg0) :=
  (skip_ops hostOps2 at main_arg0).symm.trans (W7_main_arg0 m ρ c)
theorem W6_arg1 (c : Dev nD) : W6 m ρ c (Proc.devRef .tc main_arg1) = m ((c : Thread nD τ).loc main_arg1) :=
  (skip_ops hostOps2 at main_arg1).symm.trans (W7_main_arg1 m ρ c)
theorem W6_arg10 (c : Dev nD) : W6 m ρ c (Proc.devRef .tc main_arg10) = m ((c : Thread nD τ).loc main_arg10) :=
  (skip_ops hostOps2 at main_arg10).symm.trans (W7_main_arg10 m ρ c)

/-! ## The last stretch -/

/-- The start-index column the program hands a gather: the index vector with every negative entry moved up by the
    table's height `n`, as a `[500000, 1]` column. -/
abbrev startCol (n : BitVec 32) (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 n))) a)

set_option maxHeartbeats 1000000 in
/-- The last stretch's result from any contents: the two gathers of the score vectors, added, plus the bias. -/
theorem tail_of (X : Valuation τ sig (Elt Ideal)) :
    (StableHlo.after hostOps2 X (Proc.devRef .tc main_v25) : FVec Ideal S500000 .f32)
      = addf (F := Ideal) (φ := .f32) (addf (F := Ideal) (φ := .f32)
          (Host.gather gather_S200000_S500000x1_S500000_n_0_n_n_0_1_1 (X (Proc.devRef .tc main_v4) : FVec Ideal S200000 .f32)
            (startCol 200000#32 (X (Proc.devRef .tc main_arg0))) : FVec Ideal S500000 .f32)
          (Host.gather gather_S500000_S500000x1_S500000_n_0_n_n_0_1_1
            (extractStridedSlice S500000 ![0] (X (Proc.devRef .tc main_v6) : FVec Ideal S507904 .f32) slices_S507904_S500000_0 : FVec Ideal S500000 .f32)
            (startCol 500000#32 (X (Proc.devRef .tc main_arg1))) : FVec Ideal S500000 .f32))
        (broadcastInDim S500000 ![] bcast_S_S500000
          (shapeCast S_ (X (Proc.devRef .tc main_arg10) : FVec Ideal S1 .f32) shapeCasts_S1_S_ : FVec Ideal S_ .f32) : FVec Ideal S500000 .f32) := by
  after_results_simp
  rfl

/-! ## The result -/

/-- THE KERNEL IS THE SPECIFICATION: the result array at the last boundary is `Spec.out` of the argument arrays at the
    start-index columns the program computes. -/
theorem result_eq (c : Dev nD) :
    (W7 m ρ c (Proc.devRef .tc main_v25) : FVec Ideal S500000 .f32)
      = Cert.Spec.out (startCol 200000#32 (m ((c : Thread nD τ).loc main_arg0))) (startCol 500000#32 (m ((c : Thread nD τ).loc main_arg1)))
          (m ((c : Thread nD τ).loc main_arg3)) (m ((c : Thread nD τ).loc main_arg4))
          (m ((c : Thread nD τ).loc main_arg9)) (m ((c : Thread nD τ).loc main_arg10)) := by
  show (StableHlo.after hostOps2 (W6 m ρ c) (Proc.devRef .tc main_v25) : FVec Ideal S500000 .f32) = _
  rw [tail_of, W6_arg0, W6_arg1, W6_arg10, W6_v4, W5_v4, W3_v3, V2_v2, V2_v0, W6_v6, V5_v5, V5_v1]
  funext i
  obtain ⟨b, rfl⟩ : ∃ b : Fin 500000, i = ix1 b := ⟨i 0, eq_ix1 i⟩
  unfold Cert.Spec.out
  refine congrArg₂ (· + ·) (congrArg₂ (· + ·) ?_ ?_) ?_
  · refine (gather_vec_apply (by omega) gather_S200000_S500000x1_S500000_n_0_n_n_0_1_1_wf _ _ b).trans ?_
    exact score0_row _ _ _ _
  · refine (gather_vec_apply (by omega) gather_S500000_S500000x1_S500000_n_0_n_n_0_1_1_wf _ _ b).trans ?_
    exact score1_row _ _ _ _
  · refine (broadcastInDim_apply _ bcast_S_S500000 _ (ix1 b) ix0 (fun a => a.elim0)).trans ?_
    refine shapeCast_apply _ shapeCasts_S1_S_ ix0 (ix1 (0 : Fin 1)) ?_
    rw [Shape.rowMajor_val_one]
    exact (Nat.lt_one_iff.mp (S_.rowMajor ix0).isLt).symm

end Cert.KernelIdeal.KernelValue

end
-- ==== Proof.SumSplit.lean ====
/-
  A sum over 128 terms is the sum of its first 64 and of its last 64, in any commutative additive monoid: on the
  extended reals this needs no finiteness, addition there being commutative and associative everywhere.
-/
import Mathlib.Algebra.BigOperators.Fin

namespace Idealize.ShloMosaic.SumSplit

/-- `∑ k < 128, f k = ∑ k < 64, f k + ∑ k < 64, f (64 + k)`. -/
theorem sum_128_eq_64_add_64 {M : Type*} [AddCommMonoid M] (f : Fin 128 → M) :
    ∑ k : Fin 128, f k = ∑ k : Fin 64, f ⟨k.val, by omega⟩ + ∑ k : Fin 64, f ⟨64 + k.val, by omega⟩ :=
  Fin.sum_univ_add (a := 64) (b := 64) (show Fin (64 + 64) → M from f)

end Idealize.ShloMosaic.SumSplit
-- ==== Proof.RefValue.lean ====
/-
  The value of the reference at the ideal instance. Its live part gathers whole rows — the diner row and the reviewer
  row each pair's start index selects —, lays the two rows side by side as one row of 128, multiplies by the 128
  weights and adds the bias (the two graph-convolution layers it also computes never reach the result). A row of
  128 against 128 weights is its first 64 entries against weights 0…63 plus its last 64 against weights 64…127
  (a sum split in two: addition on the extended reals is commutative and associative everywhere, so no finiteness is
  needed), and the first 64 entries are the diner row, the last 64 the reviewer row. So the result is `Spec.out`.
-/
import proofs.«422212_j60438779789899_3_alg».proof.Proof.Gen.ReferenceIdeal.Run
import proofs.«422212_j60438779789899_3_alg».proof.Proof.Gen.ReferenceIdeal.Read
import proofs.«422212_j60438779789899_3_alg».proof.Proof.Spec
import proofs.«422212_j60438779789899_3_alg».proof.Proof.SumSplit
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.RowGather
open Idealize.ShloMosaic.SumSplit

/-- The gathered diner rows at `(b, k)`: column `k` of the row pair `b`'s start index selects. -/
theorem rows0_apply (x0 : (⟨S500000, .i32⟩ : BufTy).Contents (Elt Ideal)) (x3 : (⟨S200000x64, .f32⟩ : BufTy).Contents (Elt Ideal))
    (b : Fin 500000) (k : Fin 64) :
    val_main_v6 (F := Ideal) x0 x3 (ix2 b k)
      = x3 (ix2 (rowOf 200000 (by omega) (val_main_v5 (F := Ideal) x0 (ix2 b (0 : Fin 1)))) k) :=
  gather_rows_apply (by omega) gather_S200000x64_S500000x1_S500000x64_1_0_n_n_0_1_164_wf x3 (val_main_v5 (F := Ideal) x0) b k

/-- The gathered reviewer rows at `(b, k)`. -/
theorem rows1_apply (x1 : (⟨S500000, .i32⟩ : BufTy).Contents (Elt Ideal)) (x4 : (⟨S500000x64, .f32⟩ : BufTy).Contents (Elt Ideal))
    (b : Fin 500000) (k : Fin 64) :
    val_main_v13 (F := Ideal) x1 x4 (ix2 b k)
      = x4 (ix2 (rowOf 500000 (by omega) (val_main_v12 (F := Ideal) x1 (ix2 b (0 : Fin 1)))) k) :=
  gather_rows_apply (by omega) gather_S500000x64_S500000x1_S500000x64_1_0_n_n_0_1_164_wf x4 (val_main_v12 (F := Ideal) x1) b k

/-- The pair's row of 128: entry `k < 64` is the diner row's entry `k`. -/
theorem pair_left (x0 x1 : (⟨S500000, .i32⟩ : BufTy).Contents (Elt Ideal)) (x3 : (⟨S200000x64, .f32⟩ : BufTy).Contents (Elt Ideal))
    (x4 : (⟨S500000x64, .f32⟩ : BufTy).Contents (Elt Ideal)) (b : Fin 500000) (k : Fin 64) :
    val_main_v107 (F := Ideal) x0 x1 x3 x4 (ix2 b (⟨k.val, by omega⟩ : Fin 128)) = val_main_v6 (F := Ideal) x0 x3 (ix2 b k) := by
  unfold val_main_v107
  exact concatenate_pair_apply_left 1 _ _ concatenates_S500000x64_S500000x64_S500000x128_d1 _ rfl (ix2 b k) (fun a => by
    match a with
    | ⟨0, _⟩ => rfl
    | ⟨1, _⟩ => rfl)

/-- The pair's row of 128: entry `64 + k` is the reviewer row's entry `k`. -/
theorem pair_right (x0 x1 : (⟨S500000, .i32⟩ : BufTy).Contents (Elt Ideal)) (x3 : (⟨S200000x64, .f32⟩ : BufTy).Contents (Elt Ideal))
    (x4 : (⟨S500000x64, .f32⟩ : BufTy).Contents (Elt Ideal)) (b : Fin 500000) (k : Fin 64) :
    val_main_v107 (F := Ideal) x0 x1 x3 x4 (ix2 b (⟨64 + k.val, by omega⟩ : Fin 128)) = val_main_v13 (F := Ideal) x1 x4 (ix2 b k) := by
  unfold val_main_v107
  exact concatenate_pair_apply_right 1 _ _ concatenates_S500000x64_S500000x64_S500000x128_d1 _ rfl rfl (ix2 b k) (fun a ha => by
    match a with
    | ⟨0, _⟩ => rfl
    | ⟨1, _⟩ => exact absurd rfl ha) (by show k.val + 64 = 64 + k.val; omega)

/-- THE REFERENCE IS THE SPECIFICATION: its result stage, as a function of the arguments it reads, is `Spec.out` at the
    start-index columns it computes. -/
theorem result_eq (x0 x1 : (⟨S500000, .i32⟩ : BufTy).Contents (Elt Ideal)) (x3 : (⟨S200000x64, .f32⟩ : BufTy).Contents (Elt Ideal))
    (x4 : (⟨S500000x64, .f32⟩ : BufTy).Contents (Elt Ideal)) (x9 : (⟨S128x1, .f32⟩ : BufTy).Contents (Elt Ideal))
    (x10 : (⟨S1, .f32⟩ : BufTy).Contents (Elt Ideal)) :
    val_main_v112 (F := Ideal) x0 x1 x3 x4 x9 x10
      = Cert.Spec.out (val_main_v5 (F := Ideal) x0) (val_main_v12 (F := Ideal) x1) x3 x4 x9 x10 := by
  funext i
  obtain ⟨b, rfl⟩ : ∃ b : Fin 500000, i = ix1 b := ⟨i 0, eq_ix1 i⟩
  have el : ∀ k : Fin 128, lidx_main_v108 (idx_main_v112 (ix1 b)) k = ix2 b k := fun k => funext fun a => Fin.ext (by
    match a with
    | ⟨0, _⟩ => show b.val / 1 = b.val; exact Nat.div_one _
    | ⟨1, _⟩ => rfl)
  have er : ∀ k : Fin 128, ridx_main_v108 (idx_main_v112 (ix1 b)) k = ix2 k (0 : Fin 1) := fun k => funext fun a => Fin.ext (by
    match a with
    | ⟨0, _⟩ => rfl
    | ⟨1, _⟩ => rfl)
  have eb : idx_main_v109 (idx_main_v110 (idx_main_v112 (ix1 b))) = ix1 (0 : Fin 1) := funext fun a => Fin.ext (by
    match a with
    | ⟨0, _⟩ => rfl)
  rw [val_main_v112_apply, val_main_v111_apply, val_main_v108_apply, val_main_v110_apply, val_main_v109_apply, eb,
    sum_128_eq_64_add_64]
  unfold Cert.Spec.out Cert.Spec.rowScore
  refine congrArg₂ (· + ·) (congrArg₂ (· + ·) (Finset.sum_congr rfl fun k _ => ?_) (Finset.sum_congr rfl fun k _ => ?_)) rfl
  · rw [el, er, pair_left, rows0_apply]
    refine congrArg₂ (· * ·) rfl (congrArg x9 ?_)
    exact congrArg (fun q : Fin 128 => ix2 q (0 : Fin 1)) (Fin.ext (Nat.zero_add _).symm)
  · rw [el, er, pair_right, rows1_apply]

end Cert.ReferenceIdeal.RefValue

end
-- ==== Proof.lean ====
/-
  The kernel computes, for each of 500000 (diner, reviewer) pairs, the head of a small network: the pair's two embedding
  rows against the 128 weights, plus a bias. The reference gathers the two rows, lays them side by side and multiplies
  by the weight column; the kernel first multiplies EVERY row of each table by its half of the weights (two sweeps over
  zero-padded tables) and then gathers the two scores. A row gathered and then scored is the row's score gathered, and
  a row of 128 against 128 weights is its two halves against the two halves of the weights: both programs end with
      out[b] = ∑ k < 64, D[rd b, k] · W[k, 0] + ∑ k < 64, R[rr b, k] · W[64 + k, 0] + bias[0]
  on the extended reals (`Spec.out`), where `rd b`, `rr b` are the rows the start indices select: negative indices
  moved up by the table's height, then clamped into the table, identically in both programs. Only commutativity and
  associativity of the extended reals' addition are used, so the precondition (finite inputs) is never opened.
  The idealization rewrote nothing, so `preserves` is trivial; the three frames are the generated ones (the reference's
  is its generated run with the result dropped).
-/
import proofs.«422212_j60438779789899_3_alg».proof.Defs
import proofs.«422212_j60438779789899_3_alg».proof.Proof.Gen.Kernel
import proofs.«422212_j60438779789899_3_alg».proof.Proof.Gen.Kernel.Skeleton
import proofs.«422212_j60438779789899_3_alg».proof.Proof.Gen.Kernel.Launch
import proofs.«422212_j60438779789899_3_alg».proof.Proof.Gen.Kernel.Points
import proofs.«422212_j60438779789899_3_alg».proof.Proof.Gen.Kernel.Frame
import proofs.«422212_j60438779789899_3_alg».proof.Proof.Gen.KernelIdeal
import proofs.«422212_j60438779789899_3_alg».proof.Proof.Gen.KernelIdeal.Skeleton
import proofs.«422212_j60438779789899_3_alg».proof.Proof.Gen.KernelIdeal.Launch
import proofs.«422212_j60438779789899_3_alg».proof.Proof.Gen.KernelIdeal.Points
import proofs.«422212_j60438779789899_3_alg».proof.Proof.Gen.KernelIdeal.Frame
import proofs.«422212_j60438779789899_3_alg».proof.Proof.Gen.ReferenceIdeal
import proofs.«422212_j60438779789899_3_alg».proof.Proof.Gen.ReferenceIdeal.Run
import proofs.«422212_j60438779789899_3_alg».proof.Proof.Gen.ReferenceIdeal.Read
import proofs.«422212_j60438779789899_3_alg».proof.Proof.Gen.Pre_finite_inputs
import proofs.«422212_j60438779789899_3_alg».proof.Proof.KernelRun
import proofs.«422212_j60438779789899_3_alg».proof.Proof.KernelValue
import proofs.«422212_j60438779789899_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `Spec.out` of the arguments: the kernel by its two sweeps and its gathers of scores
    (KernelValue), the reference by its gathers of rows and one product (RefValue); the start-index columns the two
    programs compute are the same term of the same index vectors. -/
theorem algebraic : Cert.algebraic_KernelIdeal_ReferenceIdeal := by
  intro m ρ m' ρ' _ hagree
  refine ⟨fun c => Cert.Spec.out
      (Cert.KernelIdeal.KernelValue.startCol 200000#32 (m ((c.tc : Thread Cert.KernelIdeal.nD Cert.KernelIdeal.τ).loc Cert.KernelIdeal.main_arg0)))
      (Cert.KernelIdeal.KernelValue.startCol 500000#32 (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.result_eq m ρ c), (h c).2⟩)
      (Cert.KernelIdeal.GenRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v112_eq, Cert.ReferenceIdeal.RefValue.result_eq, h0, h1, h3, h4, h9, h10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
